-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x10 : Shape := ⟨2, ![16384, 10]⟩
abbrev S16384x256 : Shape := ⟨2, ![16384, 256]⟩
abbrev S8192x256 : Shape := ⟨2, ![8192, 256]⟩
abbrev S_ : Shape := ⟨0, ![]⟩

class Facts : Prop where
  bcast_S_S16384x10 : S_.BroadcastsInDim S16384x10 (![] : Fin 0 → Fin S16384x10.rank)
  reducesTo_S16384x10_S_d0_1 : S16384x10.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S16384x10 .f32) (main_arg1 : FVec F S16384x256 .f32) (main_arg2 : FVec F S8192x256 .f32) : IVec S_ 1 :=
  let main_v0 : FVec F S16384x10 .f32 := Host.absf main_arg0
  let main_cst : FVec F S_ .f32 := constant S_ .f32 0x7F800000#32
  let main_v1 : FVec F S16384x10 .f32 := broadcastInDim S16384x10 ![] bcast_S_S16384x10 main_cst
  let main_v2 : IVec S16384x10 1 := cmpf .olt main_v0 main_v1
  let main_c : IVec S_ 1 := constantI S_ 1 1#1
  let main_v3 : IVec S_ 1 := (fun x v => Host.reduce IntOp.andi x v reducesTo_S16384x10_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S16384x10 : Shape := ⟨2, ![16384, 10]⟩
abbrev S16384x256 : Shape := ⟨2, ![16384, 256]⟩
abbrev S8192x256 : Shape := ⟨2, ![8192, 256]⟩
abbrev S_ : Shape := ⟨0, ![]⟩
abbrev S8192 : Shape := ⟨1, ![8192]⟩
abbrev S1x8192 : Shape := ⟨2, ![1, 8192]⟩
abbrev S16384 : Shape := ⟨1, ![16384]⟩
abbrev S4096x256 : Shape := ⟨2, ![4096, 256]⟩
abbrev S4096 : Shape := ⟨1, ![4096]⟩
abbrev S4096x1 : Shape := ⟨2, ![4096, 1]⟩
abbrev S512x256 : Shape := ⟨2, ![512, 256]⟩
abbrev S1x512 : Shape := ⟨2, ![1, 512]⟩
abbrev S4096x512 : Shape := ⟨2, ![4096, 512]⟩

abbrev nBuf : Space → Nat
  | .hbm => 9
  | .vmem => 6
  | .smem => 0
  | _ => 0

abbrev bufTy : (tb : Table) → Fin (tcTables nBuf tb) → BufTy
  | .hbm, ⟨0, _⟩ => ⟨S16384x10, .f32⟩
  | .hbm, ⟨1, _⟩ => ⟨S16384x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S8192x256, .bf16⟩
  | .hbm, ⟨8, _⟩ => ⟨S16384, .f32⟩
  | .local _ .vmem, ⟨0, _⟩ => ⟨S4096x256, .f32⟩
  | .local _ .vmem, ⟨1, _⟩ => ⟨S4096x256, .f32⟩
  | .local _ .vmem, ⟨2, _⟩ => ⟨S8192x256, .bf16⟩
  | .local _ .vmem, ⟨3, _⟩ => ⟨S1x8192, .f32⟩
  | .local _ .vmem, ⟨4, _⟩ => ⟨S4096, .f32⟩
  | .local _ .vmem, ⟨5, _⟩ => ⟨S4096, .f32⟩
  | _, _ => ⟨S16384x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  v10
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v12 : Index := Scalar.indexCast v11
  let c0_4 : Index := 0#32
  ![v12.toNat, 0]
def k0_off2 (k0_t1 : Fin k0_t1_loop.trips) : Fin 2 → Nat :=
  let c0_5 : Index := 0#32
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v15 : Index := Scalar.indexCast v11
  ![0, v15.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8192x256_S8192_d1 : S8192x256.ReducesTo [1] S8192
  h_S_ : 0 < S_.numel
  shapeCasts_S8192_S1x8192 : S8192.ShapeCasts S1x8192
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  h_S512x256 : 0 < S512x256.numel
  shapeCasts_S512x256_S512x256 : S512x256.ShapeCasts S512x256
  h_S1x512 : 0 < S1x512.numel
  shapeCasts_S1x512_S1x512 : S1x512.ShapeCasts S1x512
  broadcasts_S4096x1_S4096x512 : S4096x1.Broadcasts S4096x512
  broadcasts_S1x512_S4096x512 : S1x512.Broadcasts S4096x512
  reduces_S4096x512_S4096 : S4096x512.Reduces [1] S4096
  inb_S4096_S4096_0 : ∀ a, (![0] : Fin 1 → Nat) a + S4096.size a ≤ S4096.size a
  h_S4096 : 0 < S4096.numel
  dot_S4096x256_S512x256_S4096x512_1_1_0_0_n_n_wf : DotDims.WF S4096x256 S512x256 S4096x512 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x256.size a ≤ S8192x256.size a
  k0_off2_inb : ∀ k0_t1 : Fin k0_t1_loop.trips, ∀ a, (k0_off2 k0_t1) a + S1x512.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S16384.size a
  hwx0_3 : ∀ i : grid0.Coords, EltTy.bits .f32 = 32 ∨ (Rect.block (s := S16384) S4096.size (cc0_transform_3 i) (hinb0_3 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_arg1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x10 : Shape := ⟨2, ![16384, 10]⟩
abbrev S16384x256 : Shape := ⟨2, ![16384, 256]⟩
abbrev S8192x256 : Shape := ⟨2, ![8192, 256]⟩
abbrev S_ : Shape := ⟨0, ![]⟩
abbrev S16384 : Shape := ⟨1, ![16384]⟩
abbrev S8192 : Shape := ⟨1, ![8192]⟩
abbrev S16384x1 : Shape := ⟨2, ![16384, 1]⟩
abbrev S1x8192 : Shape := ⟨2, ![1, 8192]⟩
abbrev S16384x8192 : Shape := ⟨2, ![16384, 8192]⟩
abbrev S256x8192 : Shape := ⟨2, ![256, 8192]⟩

abbrev nBuf : Space → Nat
  | .hbm => 26
  | .vmem => 0
  | .smem => 0
  | _ => 0

abbrev bufTy : (tb : Table) → Fin (tcTables nBuf tb) → BufTy
  | .hbm, ⟨0, _⟩ => ⟨S16384x10, .f32⟩
  | .hbm, ⟨1, _⟩ => ⟨S16384x256, .f32⟩
  | .hbm, ⟨2, _⟩ => ⟨S8192x256, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S16384x1, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S256x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S_, .f32⟩
  | .hbm, ⟨21, _⟩ => ⟨S16384x8192, .f32⟩
  | .hbm, ⟨22, _⟩ => ⟨S16384x8192, .f32⟩
  | .hbm, ⟨23, _⟩ => ⟨S_, .f32⟩
  | .hbm, ⟨24, _⟩ => ⟨S16384, .f32⟩
  | .hbm, ⟨25, _⟩ => ⟨S16384, .f32⟩
  | _, _ => ⟨S16384x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  reducesTo_S8192x256_S8192_d1 : S8192x256.ReducesTo [1] S8192
  bcast_S16384_S16384x1_0 : S16384.BroadcastsInDim S16384x1 (![0] : Fin 1 → Fin S16384x1.rank)
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  transposes_S8192x256_S256x8192_1_0 : S8192x256.Transposes [1, 0] S256x8192
  bcast_S_S16384x8192 : S_.BroadcastsInDim S16384x8192 (![] : Fin 0 → Fin S16384x8192.rank)
  reducesTo_S16384x8192_S16384_d1 : S16384x8192.ReducesTo [1] S16384
  dot_S16384x256_S256x8192_S16384x8192_1_0_0_1_n_n_wf : DotDims.WF S16384x256 S256x8192 S16384x8192 [1] [0] [0] [1] [] []

variable [Facts₀]

def dot_S16384x256_S256x8192_S16384x8192_1_0_0_1_n_n : DotDims S16384x256 S256x8192 S16384x8192 where
  lhsContracting := [1]
  rhsContracting := [0]
  lhsNonContracting := [0]
  rhsNonContracting := [1]
  lhsBatch := []
  rhsBatch := []
  wf := dot_S16384x256_S256x8192_S16384x8192_1_0_0_1_n_n_wf

class Facts : Prop extends Facts₀ where

variable [Facts]
-- ==== Proof.KTrip.lean ====
/-
  What one grid point's body leaves in its output block, read off the run once.

  The body loads the point's 4096 rows of U, starts a running minimum at +∞, and makes 16 trips; trip k
  loads rows 512k … 512k+511 of L and the matching 512 entries of the row of squared norms, and replaces
  the running minimum by its elementwise minimum with the chunk's (the payload `k0_pay2`).  After the last
  trip the square root of the running minimum is stored over the whole block (`k0_pay3`).

  `trip_eq`: one trip's yield is that payload of the two loads.
  `carried_succ`: so the carried value obeys the recursion "next = payload of (current, the two loads)".
  `block_eq`: the block is the square root payload of the carried value after the 16 trips, the loop
  started from the +∞ splat `k0_pay1` and reading the point's own U rows.
-/
import proofs.«158359_j53833120088162_1_alg».proof.Proof.Gen.KernelIdeal.Frame
import Idealize.ShloMosaic.Lib.Pipeline.Value

set_option maxRecDepth 16384

noncomputable section

namespace Cert.KernelIdeal.NearestRow

open Cert.KernelIdeal Cert.KernelIdeal.Gen
open Idealize.ShloMosaic Idealize.ShloMosaic.TcCoe Idealize.ShloMosaic.Tactic
open Idealize.SL Idealize.SL.Sem

variable {F : FTy → Type} [FloatOps F]

/-- The rows of L that trip `k` loads, and the entries of the row of squared norms, read off whole
    staging buffers holding `x1` and `x2`. -/
abbrev lrows (arg2 : Memref sig .tc .vmem S8192x256 .bf16) (harg2 : arg2.IsWhole) (x1 : Vec F S8192x256 .bf16)
    (k : Fin k0_t1_loop.trips) : Vec F S512x256 .bf16 :=
  View.readAt (Elt F) arg2.view (Rect.unit (s := S8192x256) (k0_off1 k) S512x256.size (k0_off1_inb k)).toLoadRect (harg2.unread x1)
abbrev lsq (arg3 : Memref sig .tc .vmem S1x8192 .f32) (harg3 : arg3.IsWhole) (x2 : Vec F S1x8192 .f32)
    (k : Fin k0_t1_loop.trips) : Vec F S1x512 .f32 :=
  View.readAt (Elt F) arg3.view (Rect.unit (s := S1x8192) (k0_off2 k) S1x512.size (k0_off2_inb k)).toLoadRect (harg3.unread x2)

/-- One trip's yield, as the run found it: the payload of the carried value and the trip's two loads. -/
theorem trip_eq (𝒱 : Variants) (c : Dev nD) (bd : Option 𝒱.V) (i : grid0.Coords) (arg1 : Memref sig .tc .vmem S4096x256 .f32) (harg1 : arg1.IsWhole) (arg2 : Memref sig .tc .vmem S8192x256 .bf16) (harg2 : arg2.IsWhole) (arg3 : Memref sig .tc .vmem S1x8192 .f32) (harg3 : arg3.IsWhole) (arg4 : Memref sig .tc .vmem S4096 .f32) (harg4 : arg4.IsWhole) (v0 : Vec F S4096x256 .f32) (X_arg2 : BufTy.Contents (Elt F) arg2.view.ty) (X_arg3 : BufTy.Contents (Elt F) arg3.view.ty) (k : Fin k0_t1_loop.trips) (acc : FVec F S4096 .f32) :
    tripR_k0_t1 (F := F) 𝒱 c bd i arg1 harg1 arg2 harg2 arg3 harg3 arg4 harg4 v0 X_arg2 X_arg3 k acc
      = k0_pay2 v0 acc
          (View.readAt (Elt F) arg2.view (Rect.unit (s := S8192x256) (k0_off1 k) S512x256.size (k0_off1_inb k)).toLoadRect X_arg2)
          (View.readAt (Elt F) arg3.view (Rect.unit (s := S1x8192) (k0_off2 k) S1x512.size (k0_off2_inb k)).toLoadRect X_arg3) := by
  unfold tripR_k0_t1 trip_k0_t1
  rfl

/-- The carried value of the loop at one grid point, the staging buffers holding `x0`, `x1`, `x2`. -/
abbrev carried (c : Dev nD) (i : grid0.Coords) (arg1 : Memref sig .tc .vmem S4096x256 .f32) (harg1 : arg1.IsWhole) (arg2 : Memref sig .tc .vmem S8192x256 .bf16) (harg2 : arg2.IsWhole) (arg3 : Memref sig .tc .vmem S1x8192 .f32) (harg3 : arg3.IsWhole) (arg4 : Memref sig .tc .vmem S4096 .f32) (harg4 : arg4.IsWhole)
    (x0 : Vec F S4096x256 .f32) (x1 : Vec F S8192x256 .bf16) (x2 : Vec F S1x8192 .f32) (K : ℕ) : FVec F S4096 .f32 :=
  st_k0_t1 (F := F) Variants.none c none i arg1 harg1 arg2 harg2 arg3 harg3 arg4 harg4 x0 (harg2.unread x1) (harg3.unread x2) (k0_pay1 (F := F)) K

theorem carried_zero (c : Dev nD) (i : grid0.Coords) (arg1 : Memref sig .tc .vmem S4096x256 .f32) (harg1 : arg1.IsWhole) (arg2 : Memref sig .tc .vmem S8192x256 .bf16) (harg2 : arg2.IsWhole) (arg3 : Memref sig .tc .vmem S1x8192 .f32) (harg3 : arg3.IsWhole) (arg4 : Memref sig .tc .vmem S4096 .f32) (harg4 : arg4.IsWhole)
    (x0 : Vec F S4096x256 .f32) (x1 : Vec F S8192x256 .bf16) (x2 : Vec F S1x8192 .f32) :
    carried c i arg1 harg1 arg2 harg2 arg3 harg3 arg4 harg4 x0 x1 x2 0 = k0_pay1 (F := F) := rfl

theorem carried_succ (c : Dev nD) (i : grid0.Coords) (arg1 : Memref sig .tc .vmem S4096x256 .f32) (harg1 : arg1.IsWhole) (arg2 : Memref sig .tc .vmem S8192x256 .bf16) (harg2 : arg2.IsWhole) (arg3 : Memref sig .tc .vmem S1x8192 .f32) (harg3 : arg3.IsWhole) (arg4 : Memref sig .tc .vmem S4096 .f32) (harg4 : arg4.IsWhole)
    (x0 : Vec F S4096x256 .f32) (x1 : Vec F S8192x256 .bf16) (x2 : Vec F S1x8192 .f32) (k : Fin k0_t1_loop.trips) :
    carried c i arg1 harg1 arg2 harg2 arg3 harg3 arg4 harg4 x0 x1 x2 (k.val + 1)
      = k0_pay2 x0 (carried c i arg1 harg1 arg2 harg2 arg3 harg3 arg4 harg4 x0 x1 x2 k.val)
          (lrows arg2 harg2 x1 k) (lsq arg3 harg3 x2 k) := by
  unfold carried
  rw [st_k0_t1_succ, trip_eq]

/-- The loop makes 16 trips. -/
theorem trips_eq : k0_t1_loop.trips = 16 := by decide

/-- What the body leaves in the output block: the square root of the carried value after the last trip. -/
theorem block_eq (c : Dev nD) (i : grid0.Coords) (arg1 : Memref sig .tc .vmem S4096x256 .f32) (harg1 : arg1.IsWhole) (arg2 : Memref sig .tc .vmem S8192x256 .bf16) (harg2 : arg2.IsWhole) (arg3 : Memref sig .tc .vmem S1x8192 .f32) (harg3 : arg3.IsWhole) (arg4 : Memref sig .tc .vmem S4096 .f32) (harg4 : arg4.IsWhole)
    (x0 : Vec F S4096x256 .f32) (x1 : Vec F S8192x256 .bf16) (x2 : Vec F S1x8192 .f32) :
    out0_A_3 c i arg1 harg1 arg2 harg2 arg3 harg3 arg4 harg4 x0 x1 x2
      = k0_pay3 (carried c i arg1 harg1 arg2 harg2 arg3 harg3 arg4 harg4 x0 x1 x2 k0_t1_loop.trips) := by
  have hz : (![0] : Fin 1 → ℕ) = fun _ => 0 := by funext a; match a with | ⟨0, _⟩ => rfl
  have hz2 : (![0, 0] : Fin 2 → ℕ) = fun _ => 0 := by funext a; match a with | ⟨0, _⟩ => rfl | ⟨1, _⟩ => rfl
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero hz]
  simp only [View.readAt_eq_ld, harg1.read_unread, View.ld_unit_zero (S := S4096x256) hz2]

end Cert.KernelIdeal.NearestRow

end
-- ==== Proof.Spec.lean ====
/-
  The distance from each row of U to its nearest row of L, as one function of the two arrays over the
  extended reals, and the one law the certificate needs about it.

  For a row n of U and a row m of L write
      gap n m = max ((|U n|² + |L m|²) − 2 · ⟨U n, L m⟩) 0,
  the clamped expansion of |U n − L m|², with |·|² and ⟨·,·⟩ the plain sums over the 256 columns.  The
  result at n is the square root of the minimum of gap n m over the 8192 rows m, the minimum taken from +∞.

  The minimum over 8192 rows may be taken in 16 consecutive chunks of 512, a running minimum started at
  +∞ absorbing each chunk's own minimum (itself started at +∞): `chunked_min`.  Only the order of the
  extended reals is used (a bound lies below a minimum exactly when it lies below the start value and
  every entry), so nothing is asked of the entries: no finiteness.
-/
import Idealize.ShloMosaic.Lib.ValueIdx
import Idealize.ShloMosaic.PureOps.Ideal.Laws

noncomputable section

open scoped BigOperators

namespace Cert.NearestRow

open Idealize.ShloMosaic Idealize.ShloMosaic.ValueIdx

/-- The two arrays' index sets and the result's. -/
abbrev SU : Shape := ⟨2, ![16384, 256]⟩
abbrev SL : Shape := ⟨2, ![8192, 256]⟩
abbrev SO : Shape := ⟨1, ![16384]⟩

/-- The literal 2.0 and the literal +∞, as both programs print them. -/
abbrev two : EReal := Ideal.ofBits .f32 0x40000000#32
abbrev inf : EReal := Ideal.ofBits .f32 0x7F800000#32

/-- |U n|²: the sum of the squares along row n. -/
def sqU (U : SU.Idx → EReal) (n : Fin 16384) : EReal := ∑ k : Fin 256, U (ix2 n k) * U (ix2 n k)
/-- |L m|². -/
def sqL (L : SL.Idx → EReal) (m : Fin 8192) : EReal := ∑ k : Fin 256, L (ix2 m k) * L (ix2 m k)
/-- ⟨U n, L m⟩. -/
def inner (U : SU.Idx → EReal) (L : SL.Idx → EReal) (n : Fin 16384) (m : Fin 8192) : EReal :=
  ∑ k : Fin 256, U (ix2 n k) * L (ix2 m k)
/-- The clamped expansion of |U n − L m|². -/
def gap (U : SU.Idx → EReal) (L : SL.Idx → EReal) (n : Fin 16384) (m : Fin 8192) : EReal :=
  max ((sqU U n + sqL L m) - two * inner U L n m) 0
/-- The same with the row of L numbered by a natural number (rows past the last read the last). -/
def gapN (U : SU.Idx → EReal) (L : SL.Idx → EReal) (n : Fin 16384) (m : ℕ) : EReal :=
  gap U L n ⟨min m 8191, by omega⟩

theorem gapN_val (U : SU.Idx → EReal) (L : SL.Idx → EReal) (n : Fin 16384) (m : Fin 8192) :
    gapN U L n m.val = gap U L n m := by
  unfold gapN
  exact congrArg (gap U L n) (Fin.ext (by have := m.isLt; simp only; omega))

/-- The least gap of row n, from +∞. -/
def nearest (U : SU.Idx → EReal) (L : SL.Idx → EReal) (n : Fin 16384) : EReal :=
  (Finset.univ : Finset (Fin 8192)).fold min inf (fun m => gap U L n m)

/-- The result: at n, the square root of the least gap. -/
def G (U : SU.Idx → EReal) (L : SL.Idx → EReal) : SO.Idx → EReal := fun i => Ideal.sqrt (nearest U L (i 0))

/-- A running minimum over 16 chunks of 512 is the minimum over all 8192: if `s 0 = b` and each step
    absorbs the minimum (from `b`) of the next 512 entries of `f`, then `s 16` is the minimum (from `b`)
    of the first 8192 entries. -/
theorem chunked_min (b : EReal) (f : ℕ → EReal) (s : ℕ → EReal) (h0 : s 0 = b)
    (hs : ∀ K, K < 16 → s (K + 1)
      = min (s K) ((Finset.univ : Finset (Fin 512)).fold min b (fun j => f (512 * K + j.val)))) :
    s 16 = (Finset.univ : Finset (Fin 8192)).fold min b (fun m => f m.val) := by
  have key : ∀ K, K ≤ 16 → ∀ y : EReal, y ≤ s K ↔ y ≤ b ∧ ∀ m, m < 512 * K → y ≤ f m := by
    intro K
    induction K with
    | zero =>
      intro _ y
      rw [h0]
      exact ⟨fun h => ⟨h, fun m hm => absurd hm (by omega)⟩, fun h => h.1⟩
    | succ K ih =>
      intro hK y
      rw [hs K (by omega), le_min_iff, ih (by omega) y, Finset.le_fold_min]
      constructor
      · rintro ⟨⟨hb, hlo⟩, -, hhi⟩
        refine ⟨hb, fun m hm => ?_⟩
        by_cases hlt : m < 512 * K
        · exact hlo m hlt
        · have := hhi ⟨m - 512 * K, by omega⟩ (Finset.mem_univ _)
          rwa [show 512 * K + (m - 512 * K) = m by omega] at this
      · rintro ⟨hb, hall⟩
        exact ⟨⟨hb, fun m hm => hall m (by omega)⟩, hb, fun j _ => hall _ (by have := j.isLt; omega)⟩
  refine eq_of_forall_le_iff fun y => ?_
  rw [key 16 le_rfl y, Finset.le_fold_min]
  constructor
  · rintro ⟨hb, hall⟩
    exact ⟨hb, fun m _ => hall m.val (by have := m.isLt; omega)⟩
  · rintro ⟨hb, hall⟩
    exact ⟨hb, fun m hm => hall ⟨m, by omega⟩ (Finset.mem_univ _)⟩

end Cert.NearestRow

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.KPayload.lean ====
/-
  One trip's payload read at a row, on the extended reals.

  For a block `x0` of 4096 rows of U, a chunk `v13` of 512 rows of L and the chunk `v16` of their squared
  norms (one row of 512 entries), the payload at row r is
      min (acc r) (min over the 512 columns j, from +∞, of
                     max ((|x0 r|² + v16 j) − 2 · ⟨x0 r, v13 j⟩) 0).
  The pieces: the row sum of squares is a sum over the 256 columns, kept as a column and spread across
  the 512 columns; the row of norms is spread down the 4096 rows; the matrix product into zeros,
  contracting the second axis of both operands, is the sum over the 256 columns of the products; the
  change of float format is the identity; the lane minimum is a fold of `min` over the columns.
  `sqrt_pay`: the last payload is the square root, entry by entry.
-/
import proofs.«158359_j53833120088162_1_alg».proof.Proof.Gen.KernelIdeal.Skeleton
import proofs.«158359_j53833120088162_1_alg».proof.Proof.Spec
import proofs.«158359_j53833120088162_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.NearestRow

open Cert.KernelIdeal Cert.KernelIdeal.Gen Cert.NearestRow
open Idealize.ShloMosaic Idealize.ShloMosaic.ValueIdx

/-- |x0 r|² for a row of the block. -/
def rowSq (x0 : S4096x256.Idx → EReal) (r : Fin 4096) : EReal := ∑ q : Fin 256, x0 (ix2 r q) * x0 (ix2 r q)
/-- ⟨x0 r, y j⟩ for a row of the block and a row of a 512-row chunk. -/
def rowDot (x0 : S4096x256.Idx → EReal) (y : S512x256.Idx → EReal) (r : Fin 4096) (j : Fin 512) : EReal :=
  ∑ q : Fin 256, x0 (ix2 r q) * y (ix2 j q)

/-- The row sum of squares, kept as a column. -/
theorem sq_column (v0 : FVec Ideal S4096x256 .f32) (h : S4096x256.Reduces [1] S4096) (hc : S4096.ShapeCasts S4096x1)
    (hφ : FKind.Formats .f32) (hacc : (0x00000000#32 : BitVec 32) = FKind.add.neutral .f32 hφ) (r : Fin 4096) :
    shapeCast S4096x1 (multiReduction .add [1] S4096 (mulf v0 v0) 0x00000000#32 h hφ hacc) hc (ix2 r (0 : Fin 1))
      = rowSq v0 r := by
  rw [shapeCast_apply _ hc (ix2 r (0 : Fin 1)) (ix1 r) (by
    rw [Shape.rowMajor_val_two, Shape.rowMajor_val_one]
    show r.val = r.val * 1 + 0
    omega)]
  rw [Ideal.multiReduction_add_single]
  refine Finset.sum_congr rfl fun q _ => ?_
  have e : h.lift (ix1 r) q = ix2 r q := funext fun a => Fin.ext (by
    match a with
    | ⟨0, _⟩ => rfl
    | ⟨1, _⟩ => rfl)
  rw [e]
  rfl

/-- The dimension numbers of the product: rows of the left operand against rows of the right, the second
    axis of both contracted. -/
theorem lhs_dot_0 (i : S4096x512.Idx) (q : dot_S4096x256_S512x256_S4096x512_1_1_0_0_n_n.contr.Idx) :
    (dot_S4096x256_S512x256_S4096x512_1_1_0_0_n_n.lhsIdx i q 0).val = (i 0).val := by
  unfold DotDims.lhsIdx
  rw [dif_neg (show ¬(0 : Fin S4096x256.rank) ∈ dot_S4096x256_S512x256_S4096x512_1_1_0_0_n_n.lhsBatch by decide), dif_pos (show (0 : Fin S4096x256.rank) ∈ dot_S4096x256_S512x256_S4096x512_1_1_0_0_n_n.lhsNonContracting by decide)]
  rfl
theorem lhs_dot_1 (i : S4096x512.Idx) (q : dot_S4096x256_S512x256_S4096x512_1_1_0_0_n_n.contr.Idx) :
    (dot_S4096x256_S512x256_S4096x512_1_1_0_0_n_n.lhsIdx i q 1).val = (q ⟨0, by decide⟩).val :=
  dot_S4096x256_S512x256_S4096x512_1_1_0_0_n_n.lhsIdx_val_of_single rfl i q
theorem rhs_dot_0 (i : S4096x512.Idx) (q : dot_S4096x256_S512x256_S4096x512_1_1_0_0_n_n.contr.Idx) :
    (dot_S4096x256_S512x256_S4096x512_1_1_0_0_n_n.rhsIdx i q 0).val = (i 1).val := by
  unfold DotDims.rhsIdx
  rw [dif_neg (show ¬(0 : Fin S512x256.rank) ∈ dot_S4096x256_S512x256_S4096x512_1_1_0_0_n_n.rhsBatch by decide), dif_pos (show (0 : Fin S512x256.rank) ∈ dot_S4096x256_S512x256_S4096x512_1_1_0_0_n_n.rhsNonContracting by decide)]
  rfl
theorem rhs_dot_1 (i : S4096x512.Idx) (q : dot_S4096x256_S512x256_S4096x512_1_1_0_0_n_n.contr.Idx) :
    (dot_S4096x256_S512x256_S4096x512_1_1_0_0_n_n.rhsIdx i q 1).val = (q ⟨0, by decide⟩).val :=
  dot_S4096x256_S512x256_S4096x512_1_1_0_0_n_n.rhsIdx_val_of_single rfl i q

/-- The product into zeros at entry (r, j): ⟨x0 r, y j⟩. -/
theorem dot_entry (l : FVec Ideal S4096x256 .bf16) (y : FVec Ideal S512x256 .bf16) (r : Fin 4096) (j : Fin 512) :
    FloatOps.matmul dot_S4096x256_S512x256_S4096x512_1_1_0_0_n_n none l y (constant (F := Ideal) S4096x512 .f32 0x00000000#32) (ix2 r j)
      = rowDot l y r j := by
  rw [Ideal.matmul_constant_zero_apply, ← Equiv.sum_comp (contrEquiv1 dot_S4096x256_S512x256_S4096x512_1_1_0_0_n_n 256 rfl rfl).symm]
  refine Finset.sum_congr rfl fun k _ => ?_
  have hk := contrEquiv1_symm_val dot_S4096x256_S512x256_S4096x512_1_1_0_0_n_n 256 rfl rfl k
  have el : dot_S4096x256_S512x256_S4096x512_1_1_0_0_n_n.lhsIdx (ix2 r j) ((contrEquiv1 dot_S4096x256_S512x256_S4096x512_1_1_0_0_n_n 256 rfl rfl).symm k) = ix2 r k := funext fun a => Fin.ext (by
    match a with
    | ⟨0, _⟩ => exact lhs_dot_0 _ _
    | ⟨1, _⟩ => exact (lhs_dot_1 _ _).trans hk)
  have er : dot_S4096x256_S512x256_S4096x512_1_1_0_0_n_n.rhsIdx (ix2 r j) ((contrEquiv1 dot_S4096x256_S512x256_S4096x512_1_1_0_0_n_n 256 rfl rfl).symm k) = ix2 j k := funext fun a => Fin.ext (by
    match a with
    | ⟨0, _⟩ => exact rhs_dot_0 _ _
    | ⟨1, _⟩ => exact (rhs_dot_1 _ _).trans hk)
  rw [el, er]

/-- A minimum along the 512 columns, from the literal +∞, at row r: the fold of `min` over the columns. -/
theorem min_lanes (w : FVec Ideal S4096x512 .f32) (h : S4096x512.Reduces [1] S4096)
    (hφ : FKind.Formats .f32) (hacc : (0x7F800000#32 : BitVec 32) = FKind.minimumf.neutral .f32 hφ) (r : Fin 4096) :
    multiReduction .minimumf [1] S4096 w 0x7F800000#32 h hφ hacc (ix1 r)
      = (Finset.univ : Finset (Fin 512)).fold min inf (fun j => w (ix2 r j)) := by
  rw [multiReduction_minimumf_eq_fold]
  refine (h.fold_filter_drop_single _ _ w (ix1 r)).trans ?_
  refine Finset.fold_congr fun j _ => ?_
  have e : h.lift (ix1 r) j = ix2 r j := funext fun a => Fin.ext (by
    match a with
    | ⟨0, _⟩ => rfl
    | ⟨1, _⟩ => rfl)
  exact congrArg w e

/-- One trip's payload at row r. -/
theorem pay2_apply (v0 : Vec Ideal S4096x256 .f32) (acc : FVec Ideal S4096 .f32) (v13 : Vec Ideal S512x256 .bf16)
    (v16 : Vec Ideal S1x512 .f32) (r : Fin 4096) :
    k0_pay2 (F := Ideal) v0 acc v13 v16 (ix1 r)
      = min (acc (ix1 r)) ((Finset.univ : Finset (Fin 512)).fold min inf
          (fun j => max ((rowSq v0 r + v16 (ix2 (0 : Fin 1) j)) - two * rowDot v0 v13 r j) 0)) := by
  unfold k0_pay2
  refine congrArg (min (acc (ix1 r))) ?_
  refine (min_lanes _ _ _ _ r).trans ?_
  refine Finset.fold_congr fun j _ => ?_
  show max ((broadcastTo S4096x512 _ _ (ix2 r j) + broadcastTo S4096x512 _ _ (ix2 r j))
      - Ideal.ofBits .f32 0x40000000#32 * FloatOps.matmul _ none _ _ _ (ix2 r j)) (Ideal.ofBits .f32 0x00000000#32) = _
  refine congrArg₂ max (congrArg₂ HSub.hSub (congrArg₂ HAdd.hAdd ?_ ?_) (congrArg (HMul.hMul _) ?_)) Ideal.ofBits_zero_f32
  · exact (Cert.LibPlainDot.broadcastTo_a1_ab_apply _ _ r j).trans (sq_column v0 _ _ _ _ r)
  · exact (broadcastTo_1b_ab_apply _ _ r j).trans (congrFun (shapeCast_self v16 _) _)
  · refine (dot_entry _ _ r j).trans ?_
    show rowDot _ (shapeCast S512x256 v13 _) r j = rowDot v0 v13 r j
    rw [shapeCast_self]
    rfl

/-- The last payload is the square root, entry by entry. -/
theorem sqrt_pay (v7 : FVec Ideal S4096 .f32) (i : S4096.Idx) : k0_pay3 (F := Ideal) v7 i = Ideal.sqrt (v7 i) := rfl

/-- The loop starts from +∞ everywhere. -/
theorem start_pay (i : S4096.Idx) : k0_pay1 (F := Ideal) i = inf := rfl

end Cert.KernelIdeal.NearestRow

end
-- ==== Proof.KLoop.lean ====
/-
  The running minimum after the 16 trips, at a row of the block, is the minimum over all 8192 rows of L.

  Trip K loads rows 512K … 512K+511 of the staged L and entries 512K … 512K+511 of the staged row of
  squared norms (`lrows_apply`, `lsq_apply`: a load through a whole buffer reads the contents at the
  offset plus the local coordinate).  So the trip's payload at row r is the minimum of the carried value
  with the least of the 512 block gaps
      blockGap r m' = max ((|x0 r|² + x2 m') − 2 · ⟨x0 r, x1 m'⟩) 0,   m' = 512K + j,
  and the chunk law of the specification joins the 16 chunks into one minimum from +∞ (`carried_row`).
-/
import proofs.«158359_j53833120088162_1_alg».proof.Proof.KTrip
import proofs.«158359_j53833120088162_1_alg».proof.Proof.KPayload
import Idealize.ShloMosaic.Lib.WholeRead

noncomputable section

open scoped BigOperators

namespace Cert.KernelIdeal.NearestRow

open Cert.KernelIdeal Cert.KernelIdeal.Gen Cert.NearestRow
open Idealize.ShloMosaic Idealize.ShloMosaic.ValueIdx

/-- The gap of row r of the block against row m' of the staged L, from the staged squared norms. -/
def blockGap (x0 : S4096x256.Idx → EReal) (x1 : S8192x256.Idx → EReal) (x2 : S1x8192.Idx → EReal)
    (r : Fin 4096) (m' : Fin 8192) : EReal :=
  max ((rowSq x0 r + x2 (ix2 (0 : Fin 1) m')) - two * ∑ q : Fin 256, x0 (ix2 r q) * x1 (ix2 m' q)) 0

/-- The same with the row numbered by a natural number (past the last row: the last). -/
def blockGapN (x0 : S4096x256.Idx → EReal) (x1 : S8192x256.Idx → EReal) (x2 : S1x8192.Idx → EReal)
    (r : Fin 4096) (m' : ℕ) : EReal :=
  blockGap x0 x1 x2 r ⟨min m' 8191, by omega⟩

theorem blockGapN_of_lt (x0 : S4096x256.Idx → EReal) (x1 : S8192x256.Idx → EReal) (x2 : S1x8192.Idx → EReal)
    (r : Fin 4096) (m' : ℕ) (h : m' < 8192) : blockGapN x0 x1 x2 r m' = blockGap x0 x1 x2 r ⟨m', h⟩ := by
  unfold blockGapN
  exact congrArg (blockGap x0 x1 x2 r) (Fin.ext (by simp only; omega))

/-- Trip K's load of the row of squared norms, at its local column j: the staged entry 512K + j. -/
theorem lsq_apply (arg3 : Memref sig .tc .vmem S1x8192 .f32) (harg3 : arg3.IsWhole) (x2 : Vec Ideal S1x8192 .f32)
    (K : ℕ) (hk : K < k0_t1_loop.trips) (j : Fin 512) (hm : 512 * K + j.val < 8192) :
    lsq arg3 harg3 x2 ⟨K, hk⟩ (ix2 (0 : Fin 1) j) = x2 (ix2 (0 : Fin 1) ⟨512 * K + j.val, hm⟩) := by
  show View.readAt (Elt Ideal) arg3.view _ (harg3.unread x2) _ = _
  rw [Memref.IsWhole.readAt_unread]
  refine congrArg x2 (funext fun a => Fin.ext ?_)
  have e0 := congrFun (k0_off2_eq ⟨K, hk⟩) 0
  have e1 := congrFun (k0_off2_eq ⟨K, hk⟩) 1
  match a with
  | ⟨0, _⟩ =>
    show k0_off2 ⟨K, hk⟩ 0 + 1 * 0 = 0
    rw [e0]; rfl
  | ⟨1, _⟩ =>
    show k0_off2 ⟨K, hk⟩ 1 + 1 * j.val = 512 * K + j.val
    rw [e1]
    show 512 * K + 1 * j.val = 512 * K + j.val
    omega

/-- Trip K's load of 512 rows of L, at its local (j, q): the staged row 512K + j at column q. -/
theorem lrows_apply (arg2 : Memref sig .tc .vmem S8192x256 .bf16) (harg2 : arg2.IsWhole) (x1 : Vec Ideal S8192x256 .bf16)
    (K : ℕ) (hk : K < k0_t1_loop.trips) (j : Fin 512) (q : Fin 256) (hm : 512 * K + j.val < 8192) :
    lrows arg2 harg2 x1 ⟨K, hk⟩ (ix2 j q) = x1 (ix2 ⟨512 * K + j.val, hm⟩ q) := by
  show View.readAt (Elt Ideal) arg2.view _ (harg2.unread x1) _ = _
  rw [Memref.IsWhole.readAt_unread]
  refine congrArg x1 (funext fun a => Fin.ext ?_)
  have e0 := congrFun (k0_off1_eq ⟨K, hk⟩) 0
  have e1 := congrFun (k0_off1_eq ⟨K, hk⟩) 1
  match a with
  | ⟨0, _⟩ =>
    show k0_off1 ⟨K, hk⟩ 0 + 1 * j.val = 512 * K + j.val
    rw [e0]
    show 512 * K + 1 * j.val = 512 * K + j.val
    omega
  | ⟨1, _⟩ =>
    show k0_off1 ⟨K, hk⟩ 1 + 1 * q.val = q.val
    rw [e1]
    show 0 + 1 * q.val = q.val
    omega

/-- After the last trip the carried value at row r is the least block gap over all 8192 rows, from +∞. -/
theorem carried_row (c : Dev nD) (i : grid0.Coords) (arg1 : Memref sig .tc .vmem S4096x256 .f32) (harg1 : arg1.IsWhole) (arg2 : Memref sig .tc .vmem S8192x256 .bf16) (harg2 : arg2.IsWhole) (arg3 : Memref sig .tc .vmem S1x8192 .f32) (harg3 : arg3.IsWhole) (arg4 : Memref sig .tc .vmem S4096 .f32) (harg4 : arg4.IsWhole)
    (x0 : Vec Ideal S4096x256 .f32) (x1 : Vec Ideal S8192x256 .bf16) (x2 : Vec Ideal S1x8192 .f32) (r : Fin 4096) :
    carried c i arg1 harg1 arg2 harg2 arg3 harg3 arg4 harg4 x0 x1 x2 k0_t1_loop.trips (ix1 r)
      = (Finset.univ : Finset (Fin 8192)).fold min inf (fun m' => blockGap x0 x1 x2 r m') := by
  have h16 : carried c i arg1 harg1 arg2 harg2 arg3 harg3 arg4 harg4 x0 x1 x2 k0_t1_loop.trips
      = carried c i arg1 harg1 arg2 harg2 arg3 harg3 arg4 harg4 x0 x1 x2 16 :=
    congrArg (carried c i arg1 harg1 arg2 harg2 arg3 harg3 arg4 harg4 x0 x1 x2) trips_eq
  rw [h16]
  refine (chunked_min inf (blockGapN x0 x1 x2 r)
    (fun K => carried c i arg1 harg1 arg2 harg2 arg3 harg3 arg4 harg4 x0 x1 x2 K (ix1 r)) rfl ?_).trans ?_
  · intro K hK
    have hk : K < k0_t1_loop.trips := by rw [trips_eq]; exact hK
    refine (congrFun (carried_succ c i arg1 harg1 arg2 harg2 arg3 harg3 arg4 harg4 x0 x1 x2 ⟨K, hk⟩) (ix1 r)).trans ?_
    refine (pay2_apply x0 _ _ _ r).trans ?_
    refine congrArg (min _) (Finset.fold_congr fun j _ => ?_)
    have hm : 512 * K + j.val < 8192 := by have := j.isLt; omega
    rw [blockGapN_of_lt x0 x1 x2 r _ hm, lsq_apply arg3 harg3 x2 K hk j hm]
    unfold blockGap rowDot
    refine congrArg (fun s => max ((rowSq x0 r + x2 (ix2 (0 : Fin 1) ⟨512 * K + j.val, hm⟩)) - two * s) 0) ?_
    exact Finset.sum_congr rfl fun q _ => congrArg (x0 (ix2 r q) * ·) (lrows_apply arg2 harg2 x1 K hk j q hm)
  · refine Finset.fold_congr fun m' _ => ?_
    exact blockGapN_of_lt x0 x1 x2 r m'.val m'.isLt

end Cert.KernelIdeal.NearestRow

end
-- ==== Proof.KBlock.lean ====
/-
  What grid point t writes back is block t of `G` of the two argument arrays.

  Point t stages rows 4096t … 4096t+4095 of U, and the whole of two arrays the host made before the
  region: L with its float format changed (the identity on the extended reals), and the row of squared
  norms |L m|² (a sum from a zero initial value, laid out as one row).  So the block gap of row r against
  row m' is the gap of row 4096t + r of U against row m' of L, the body's block at r is the square root of
  the least of them, and the output's block t sits at rows 4096t … 4096t+4095 of the result.
-/
import proofs.«158359_j53833120088162_1_alg».proof.Proof.Gen.KernelIdeal.Value
import proofs.«158359_j53833120088162_1_alg».proof.Proof.KLoop
import Idealize.ShloMosaic.Lib.StableHlo.Run
import Idealize.ShloMosaic.Lib.ValueLayout

set_option maxRecDepth 16384

noncomputable section

open scoped BigOperators

namespace Cert.KernelIdeal.NearestRow

open Cert.KernelIdeal Cert.KernelIdeal.Gen Cert.NearestRow
open Idealize.ShloMosaic Idealize.ShloMosaic.TcCoe Idealize.ShloMosaic.StableHlo Idealize.ShloMosaic.ValueIdx
open Idealize.SL.Sem
open Idealize.ShloMosaic.Pipeline (Dat)

variable (m : (ℓ : Loc nD τ sig) → Buf (Elt Ideal) ℓ)

/-- The two argument arrays as launched. -/
abbrev Uarr (c : Dev nD) : S16384x256.Idx → EReal := m ((c : Thread nD τ).loc main_arg1)
abbrev Larr (c : Dev nD) : S8192x256.Idx → EReal := m ((c : Thread nD τ).loc main_arg2)

/-- The printed index maps over the four points: U's and the output's blocks move with the point, the
    two resident windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

theorem point_lt (t : Fin cfg0.N) : t.val < 4 := by
  have h := t.isLt
  have e : cfg0.N = 4 := N_0
  omega

/-- The staged block of U at point t, entry (r, q): U at (4096t + r, q). -/
theorem ublock_entry (c : Dev nD) (t : Fin cfg0.N) (r : Fin 4096) (q : Fin 256) (hn : 4096 * t.val + r.val < 16384) :
    iblk m c 0 t (ix2 r q) = Uarr m c (ix2 ⟨4096 * t.val + r.val, hn⟩ q) := by
  show V m c main_arg1 (((cfg0.win 0).blk t).view.emb (ix2 r q)) = _
  rw [V_main_arg1]
  obtain ⟨e0, e1, -⟩ := idx_facts t
  refine congrArg (Uarr m c) (funext fun a => Fin.ext ?_)
  match a with
  | ⟨0, _⟩ =>
    show win0_0.index t (0 : Fin 2) * 4096 + 1 * r.val = 4096 * t.val + r.val
    omega
  | ⟨1, _⟩ =>
    show win0_0.index t (1 : Fin 2) * 256 + 1 * q.val = q.val
    omega

/-- The host's copy of L in the narrower float format, as the region finds it: L. -/
theorem lcopy_eq (c : Dev nD) : (V m c main_v3 : S8192x256.Idx → EReal) = Larr m c := by
  have e : (V m c main_v3 : S8192x256.Idx → EReal) = truncf (F := Ideal) .bf16 (Larr m c) bitsLt_bf16_f32 := by
    dsimp only [V, hostOps0]
    after_results
  rw [e]
  rfl

/-- The staged L at point t, entry (m', q): L at (m', q). -/
theorem lblock_entry (c : Dev nD) (t : Fin cfg0.N) (m' : Fin 8192) (q : Fin 256) :
    iblk m c 1 t (ix2 m' q) = Larr m c (ix2 m' q) := by
  show V m c main_v3 (((cfg0.win 1).blk t).view.emb (ix2 m' q)) = _
  rw [lcopy_eq]
  obtain ⟨-, -, e0, e1, -⟩ := idx_facts t
  refine congrArg (Larr m c) (funext fun a => Fin.ext ?_)
  match a with
  | ⟨0, _⟩ =>
    show win0_1.index t (0 : Fin 2) * 8192 + 1 * m'.val = m'.val
    omega
  | ⟨1, _⟩ =>
    show win0_1.index t (1 : Fin 2) * 256 + 1 * q.val = q.val
    omega

/-- The host's row of squared norms, as the region finds it, at column m': |L m'|². -/
theorem lnorms_entry (c : Dev nD) (m' : Fin 8192) :
    (V m c main_v2 : S1x8192.Idx → EReal) (ix2 (0 : Fin 1) m') = sqL (Larr m c) m' := by
  have e : (V m c main_v2 : S1x8192.Idx → EReal)
      = shapeCast S1x8192 (Host.reduceAdd (F := Ideal) (mulf (Larr m c) (Larr m c)) (constant S_ .f32 0x00000000#32)
          reducesTo_S8192x256_S8192_d1 h_S_) shapeCasts_S8192_S1x8192 := by
    dsimp only [V, hostOps0]
    after_results
    rfl
  rw [e, shapeCast_a_1a_apply]
  simp only [Host.reduceAdd, Ideal.hostReduceAdd_def]
  rw [Ideal.hostReduceAdd_single reducesTo_S8192x256_S8192_d1 (by decide)]
  unfold sqL
  show Ideal.ofBits .f32 0x00000000#32 + _ = _
  rw [Ideal.ofBits_zero_f32, zero_add]
  refine Finset.sum_congr rfl fun k _ => ?_
  have ek : (by decide : S8192x256.Reduces [1] S8192).lift (ix1 m') k = ix2 m' k := funext fun a => Fin.ext (by
    match a with
    | ⟨0, _⟩ => rfl
    | ⟨1, _⟩ => rfl)
  rw [ek]
  rfl

/-- The staged row of squared norms at point t, column m'. -/
theorem nblock_entry (c : Dev nD) (t : Fin cfg0.N) (m' : Fin 8192) :
    iblk m c 2 t (ix2 (0 : Fin 1) m') = sqL (Larr m c) m' := by
  show V m c main_v2 (((cfg0.win 2).blk t).view.emb (ix2 (0 : Fin 1) m')) = _
  refine Eq.trans ?_ (lnorms_entry m c m')
  obtain ⟨-, -, -, -, e0, e1, -⟩ := idx_facts t
  refine congrArg (V m c main_v2 : S1x8192.Idx → EReal) (funext fun a => Fin.ext ?_)
  match a with
  | ⟨0, _⟩ =>
    show win0_2.index t (0 : Fin 2) * 1 + 1 * 0 = 0
    omega
  | ⟨1, _⟩ =>
    show win0_2.index t (1 : Fin 2) * 8192 + 1 * m'.val = m'.val
    omega

/-- At point t the block gap of row r is the gap of row 4096t + r of U. -/
theorem blockGap_eq (c : Dev nD) (t : Fin cfg0.N) (r : Fin 4096) (m' : Fin 8192) (hn : 4096 * t.val + r.val < 16384) :
    blockGap (iblk m c 0 t) (iblk m c 1 t) (iblk m c 2 t) r m'
      = gap (Uarr m c) (Larr m c) ⟨4096 * t.val + r.val, hn⟩ m' := by
  unfold blockGap gap rowSq sqU Cert.NearestRow.inner
  rw [nblock_entry m c t m']
  refine congrArg₂ max (congrArg₂ HSub.hSub (congrArg₂ HAdd.hAdd ?_ rfl) (congrArg (HMul.hMul two) ?_)) rfl
  · exact Finset.sum_congr rfl fun q _ => by rw [ublock_entry m c t r q hn]
  · exact Finset.sum_congr rfl fun q _ => by rw [ublock_entry m c t r q hn, lblock_entry m c t m' q]

/-- The body's output block at any staging buffers, entry y: the square root of the least block gap of row y. -/
theorem block_entry (c : Dev nD) (i : grid0.Coords) (arg1 : Memref sig .tc .vmem S4096x256 .f32) (harg1 : arg1.IsWhole) (arg2 : Memref sig .tc .vmem S8192x256 .bf16) (harg2 : arg2.IsWhole) (arg3 : Memref sig .tc .vmem S1x8192 .f32) (harg3 : arg3.IsWhole) (arg4 : Memref sig .tc .vmem S4096 .f32) (harg4 : arg4.IsWhole)
    (x0 : Vec Ideal S4096x256 .f32) (x1 : Vec Ideal S8192x256 .bf16) (x2 : Vec Ideal S1x8192 .f32) (y : S4096.Idx) :
    out0_A_3 c i arg1 harg1 arg2 harg2 arg3 harg3 arg4 harg4 x0 x1 x2 y
      = Ideal.sqrt ((Finset.univ : Finset (Fin 8192)).fold min inf (fun m' => blockGap x0 x1 x2 (y 0) m')) := by
  obtain ⟨r, rfl⟩ : ∃ r : Fin 4096, y = ix1 r := ⟨y 0, eq_ix1 y⟩
  rw [block_eq]
  exact (sqrt_pay _ _).trans (congrArg Ideal.sqrt (carried_row c i arg1 harg1 arg2 harg2 arg3 harg3 arg4 harg4 x0 x1 x2 r))

/-- WHAT POINT t WRITES BACK: block t of `G` of the argument arrays. -/
theorem flushed_eq (c : Dev nD) (t : Fin cfg0.N) :
    (dats m 0 c).flushed 3 t = ((cfg0.win 3).blk t).view.read (Elt Ideal) (G (Uarr m c) (Larr m c)) := by
  rw [Value.flushed3_A m c t]
  funext y
  show out0_A_3 c (grid0.coords t) (ms0_0 t) (hs0_0 t) (ms0_1 t) (hs0_1 t) (ms0_2 t) (hs0_2 t) (ms0_3 t) (hs0_3 t)
      (iblk m c 0 t) (iblk m c 1 t) (iblk m c 2 t) y = G (Uarr m c) (Larr m c) (((cfg0.win 3).blk t).view.emb y)
  refine (block_entry c (grid0.coords t) (ms0_0 t) (hs0_0 t) (ms0_1 t) (hs0_1 t) (ms0_2 t) (hs0_2 t) (ms0_3 t) (hs0_3 t)
    (iblk m c 0 t) (iblk m c 1 t) (iblk m c 2 t) y).trans ?_
  have ht := point_lt t
  have hy : (y 0).val < 4096 := (y 0).isLt
  have hn : 4096 * t.val + (y 0).val < 16384 := by omega
  obtain ⟨-, -, -, -, -, -, e3⟩ := idx_facts t
  have hrow : (((cfg0.win 3).blk t).view.emb y) 0 = ⟨4096 * t.val + (y 0).val, hn⟩ := Fin.ext (by
    show win0_3.index t (0 : Fin 1) * 4096 + 1 * (y 0).val = 4096 * t.val + (y 0).val
    omega)
  unfold G nearest
  dsimp only
  rw [hrow]
  refine congrArg Ideal.sqrt (Finset.fold_congr fun m' _ => ?_)
  exact blockGap_eq m c t (y 0) m' hn

end Cert.KernelIdeal.NearestRow

end
-- ==== Proof.KFinal.lean ====
/-
  The kernel's result array after the run is `G` of the two argument arrays.

  The output's four blocks of 4096 entries tile the 16384 entries of the result (entry i lies in the block
  of point i / 4096), every point writes its block back, and each block written is the matching block of
  `G`; so the array ends as `G`, and the frame run re-posted says so with the arguments unchanged.
-/
import proofs.«158359_j53833120088162_1_alg».proof.Proof.KBlock

set_option maxRecDepth 16384

noncomputable section

namespace Cert.KernelIdeal.NearestRow

open Cert.KernelIdeal Cert.KernelIdeal.Gen Cert.NearestRow
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- An entry of the result lies in point t's block exactly when it lies in that block's range of rows. -/
theorem mem_block (t : Fin cfg0.N) (i : S16384.Idx) :
    i ∈ ((cfg0.win 3).blk t).view.set ↔ ∀ a : Fin 1, win0_3.index t a * S4096.size a ≤ (i a).val ∧ (i a).val < win0_3.index t a * S4096.size a + S4096.size a := by
  show i ∈ ((View.whole main_v4).slice (win0_3.rect t)).set ↔ _
  rw [View.set_slice_whole, Rect.mem_set_unit]
  exact Iff.rfl

/-- Every entry of the result is in the block of some point that writes back: point i / 4096. -/
theorem covered (i : S16384.Idx) :
    ∃ t : Fin cfg0.N, (cfg0.win 3).flush t = true ∧ i ∈ ((cfg0.win 3).blk t).view.set := by
  have hi : (i 0).val < 16384 := (i 0).isLt
  have hN : cfg0.N = 4 := N_0
  have hlt : (i 0).val / 4096 < cfg0.N := by omega
  refine ⟨⟨(i 0).val / 4096, hlt⟩, flush0_3 _, ?_⟩
  rw [mem_block]
  obtain ⟨-, -, -, -, -, -, e3⟩ := idx_facts ⟨(i 0).val / 4096, hlt⟩
  have e3' : win0_3.index ⟨(i 0).val / 4096, hlt⟩ (0 : Fin 1) = (i 0).val / 4096 := e3
  intro a
  match a with
  | ⟨0, _⟩ =>
    show win0_3.index ⟨(i 0).val / 4096, hlt⟩ (0 : Fin 1) * 4096 ≤ (i 0).val
      ∧ (i 0).val < win0_3.index ⟨(i 0).val / 4096, hlt⟩ (0 : Fin 1) * 4096 + 4096
    omega

/-- The result array after the run. -/
theorem final (c : Dev nD) : (dats m 0 c).arrAt 3 cfg0.N = G (Uarr m c) (Larr m c) :=
  (dats m 0 c).arrAt_eq_of_cover 3 (G (Uarr m c) (Larr m c)) (fun t _ => flushed_eq m c t) covered

/-- Every weakly fair execution of the kernel program ends with the result at `G` of the argument arrays
    and the arguments unchanged. -/
theorem run : θ_run defs (onTc (τ := τ) (main (F := Ideal))) ⟨m, fun _ => 0, ρ⟩ fun r => ∀ c : Dev nD,
      r.2.mem ((c : Thread nD τ).loc main_v4) = G (Uarr m c) (Larr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.NearestRow

end
-- ==== Proof.Ref.lean ====
/-
  The reference computes `G`.

  Its stage before the row minimum holds, at (n, m), the clamped expansion
      max ((|U n|² + |L m|²) − 2 · ⟨U n, L m⟩) 0:
  the two sums of squares (each from a zero initial value, which adds nothing), spread over the
  16384 × 8192 table, and the product of U with the transpose of L, whose (n, m) entry is the sum over the
  256 columns of U(n,k) · L(m,k) (`gap_entry`).  The row minimum from +∞ is a fold of `min` over the
  8192 columns, and the square root is taken entry by entry (`ref_eq`).
-/
import proofs.«158359_j53833120088162_1_alg».proof.Proof.Gen.ReferenceIdeal.Read
import proofs.«158359_j53833120088162_1_alg».proof.Proof.Spec
import Idealize.ShloMosaic.PureOps.Ideal.Laws
import Idealize.ShloMosaic.Lib.ValueIdx

noncomputable section

open scoped BigOperators

namespace Cert.ReferenceIdeal.NearestRow

open Cert.ReferenceIdeal Cert.ReferenceIdeal.Gen Cert.ReferenceIdeal.Read Cert.NearestRow
open Idealize.ShloMosaic Idealize.ShloMosaic.ValueIdx

/-- The stage before the row minimum, at (n, m): the gap of row n of U against row m of L. -/
theorem gap_entry (x1 : (⟨S16384x256, .f32⟩ : BufTy).Contents (Elt Ideal)) (x2 : (⟨S8192x256, .f32⟩ : BufTy).Contents (Elt Ideal))
    (n : Fin 16384) (m : Fin 8192) :
    val_main_v15 (F := Ideal) x1 x2 (ix2 n m) = gap x1 x2 n m := by
  have e1 : ∀ k : Fin 256, idx_main_v1 (idx_main_v4 (idx_main_v6 (ix2 n m))) k = ix2 n k := fun k =>
    funext fun a => Fin.ext (by match a with | ⟨0, _⟩ => rfl | ⟨1, _⟩ => rfl)
  have e3 : ∀ k : Fin 256, idx_main_v3 (idx_main_v5 (idx_main_v7 (ix2 n m))) k = ix2 m k := fun k =>
    funext fun a => Fin.ext (by match a with | ⟨0, _⟩ => rfl | ⟨1, _⟩ => rfl)
  have el : ∀ k : Fin 256, lidx_main_v10 (ix2 n m) k = ix2 n k := fun k =>
    funext fun a => Fin.ext (by match a with | ⟨0, _⟩ => rfl | ⟨1, _⟩ => rfl)
  have er : ∀ k : Fin 256, idx_main_v9 (ridx_main_v10 (ix2 n m) k) = ix2 m k := fun k =>
    funext fun a => Fin.ext (by match a with | ⟨0, _⟩ => rfl | ⟨1, _⟩ => rfl)
  rw [val_main_v15_apply, val_main_v13_apply, val_main_v8_apply, val_main_v6_apply, val_main_v4_apply,
    val_main_v1_apply, val_main_v7_apply, val_main_v5_apply, val_main_v3_apply, val_main_v12_apply,
    val_main_v11_apply, val_main_v10_apply, val_main_v14_apply]
  simp only [val_main_cst_apply, val_main_cst_0_apply, val_main_cst_1_apply, val_main_cst_2_apply, val_main_v0_apply,
    val_main_v2_apply, val_main_v9_apply, Ideal.ofBits_def, Ideal.mulf_def, Ideal.addf_def, Ideal.subf_def,
    Ideal.maximumf_def, Ideal.ofBits_zero_f32, zero_add, e1, e3, el, er]
  rfl

/-- The reference's result is `G` of its two arrays. -/
theorem ref_eq (x1 : (⟨S16384x256, .f32⟩ : BufTy).Contents (Elt Ideal)) (x2 : (⟨S8192x256, .f32⟩ : BufTy).Contents (Elt Ideal)) :
    val_main_v17 (F := Ideal) x1 x2 = G x1 x2 := by
  funext i
  obtain ⟨n, rfl⟩ : ∃ n : Fin 16384, i = ix1 n := ⟨i 0, eq_ix1 i⟩
  rw [val_main_v17_apply, Ideal.hostUnary_sqrt_def]
  unfold G
  dsimp only
  refine congrArg Ideal.sqrt ?_
  unfold val_main_v16 nearest
  have h : S16384x8192.Reduces [1] S16384 := by decide
  refine (Host.reduce_eq_fold_single FloatOps.minimumf _ _ reducesTo_S16384x8192_S16384_d1 h h_S_ (ix1 n)).trans ?_
  refine Finset.fold_congr fun m _ => ?_
  have e : h.lift (ix1 n) m = ix2 n m := funext fun a => Fin.ext (by
    match a with
    | ⟨0, _⟩ => rfl
    | ⟨1, _⟩ => rfl)
  show val_main_v15 (F := Ideal) x1 x2 (h.lift (ix1 n) m) = _
  rw [e]
  exact gap_entry x1 x2 n m

end Cert.ReferenceIdeal.NearestRow

end
-- ==== Proof.lean ====
/-
  For every row of U, the distance to the nearest row of L: the kernel against the plain reference, on
  the extended reals.

  Both programs compute, at row n, the square root of the least over the 8192 rows m of
      max ((|U n|² + |L m|²) − 2 · ⟨U n, L m⟩) 0,
  the minimum taken from +∞ (Proof/Spec.lean: `G`).  The reference does it on one 16384 × 8192 table
  (Proof/Ref.lean).  The kernel takes the rows of U in four blocks of 4096 and, inside a block, the rows
  of L in 16 chunks of 512, keeping a running minimum; its matrix product runs on operands of a narrower
  float format, which on the extended reals is no change (Proof/KTrip.lean, KPayload.lean, KLoop.lean,
  KBlock.lean, KFinal.lean).  The two agree because a running minimum over consecutive chunks is the
  minimum over all of them: only the order of the extended reals is used, so the inputs' finiteness is
  never needed.

  The three frames are the generated ones (the reference's is its run with the result dropped); no
  rewrite was applied when the kernel was idealized, so there is nothing to preserve.
-/
import proofs.«158359_j53833120088162_1_alg».proof.Defs
import proofs.«158359_j53833120088162_1_alg».proof.Proof.Gen.Kernel
import proofs.«158359_j53833120088162_1_alg».proof.Proof.Gen.Kernel.Skeleton
import proofs.«158359_j53833120088162_1_alg».proof.Proof.Gen.Kernel.Loops
import proofs.«158359_j53833120088162_1_alg».proof.Proof.Gen.Kernel.Launch
import proofs.«158359_j53833120088162_1_alg».proof.Proof.Gen.Kernel.Points
import proofs.«158359_j53833120088162_1_alg».proof.Proof.Gen.Kernel.Frame
import proofs.«158359_j53833120088162_1_alg».proof.Proof.Gen.KernelIdeal
import proofs.«158359_j53833120088162_1_alg».proof.Proof.Gen.KernelIdeal.Skeleton
import proofs.«158359_j53833120088162_1_alg».proof.Proof.Gen.KernelIdeal.Loops
import proofs.«158359_j53833120088162_1_alg».proof.Proof.Gen.KernelIdeal.Launch
import proofs.«158359_j53833120088162_1_alg».proof.Proof.Gen.KernelIdeal.Points
import proofs.«158359_j53833120088162_1_alg».proof.Proof.Gen.KernelIdeal.Frame
import proofs.«158359_j53833120088162_1_alg».proof.Proof.Gen.ReferenceIdeal
import proofs.«158359_j53833120088162_1_alg».proof.Proof.Gen.Pre_finite_inputs
import proofs.«158359_j53833120088162_1_alg».proof.Proof.Gen.KernelIdeal.Value
import proofs.«158359_j53833120088162_1_alg».proof.Proof.Gen.ReferenceIdeal.Run
import proofs.«158359_j53833120088162_1_alg».proof.Proof.Gen.ReferenceIdeal.Read
import proofs.«158359_j53833120088162_1_alg».proof.Proof.KFinal
import proofs.«158359_j53833120088162_1_alg».proof.Proof.Ref
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at `G` of their second and third arguments, which agree. -/
theorem algebraic : Cert.algebraic_KernelIdeal_ReferenceIdeal := by
  intro m ρ m' ρ' _ hagree
  refine ⟨fun c => Cert.NearestRow.G (Cert.KernelIdeal.NearestRow.Uarr m c) (Cert.KernelIdeal.NearestRow.Larr m c),
    Cert.KernelIdeal.NearestRow.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.NearestRow.ref_eq, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
